-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  One grid point of the dense combine, read entry by entry over the extended reals.

  A grid point holds 5000 rows. With `a` the block of aggregated neighbour features, `h` the block of the nodes' own
  features, `Wl`, `Wr` the two (already transposed) weight matrices and `b` the one-row bias, the value the body
  stores at row `p`, column `q` is

      (∑ₖ a[p,k]·Wl[k,q]  +  ∑ₖ h[p,k]·Wr[k,q])  +  b[0,q]

  for the second layer, and the maximum of that with 0 for the first. The narrowing of the operands to bf16 is the
  identity on extended reals, the product into a zero accumulator is the plain row-by-column sum, and the bias row
  is repeated down the rows.
-/
import proofs.«156550_j26474178413285_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Combine

open Cert.KernelIdeal Cert.KernelIdeal.Gen Idealize.ShloMosaic Idealize.ShloMosaic.ValueIdx

/-! ## The product of a 5000-row block with a 128 × 128 matrix, at an entry -/

/-- The left operand's row is the entry's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the entry's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator is, at row `p` and column `q`, the sum over `k` of the left operand's
    row `p` times the right operand's column `q`. -/
theorem product_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two bodies' stored values -/

/-- The value one row and column of a block takes before the first layer's clamp: both products, then the bias. -/
def affine (a h : S5000x128.Idx → EReal) (wl wr : S128x128.Idx → EReal) (b : S1x128.Idx → EReal) (p : Fin 5000) (q : Fin 128) : EReal :=
  (∑ k : Fin 128, a (ix2 p k) * wl (ix2 k q) + ∑ k : Fin 128, h (ix2 p k) * wr (ix2 k q)) + b (ix2 (0 : Fin 1) q)

/-- The second layer's body stores the affine value. -/
theorem second_apply (a h : Vec Ideal S5000x128 .f32) (wl wr : Vec Ideal S128x128 .f32) (b : Vec Ideal S1x128 .f32) (p : Fin 5000) (q : Fin 128) :
    k1_pay1 a h wl wr b (ix2 p q) = affine a h wl wr b p q := by
  unfold k1_pay1 affine
  simp only [shapeCast_self]
  rw [addf_apply, addf_apply, product_apply, product_apply, broadcastTo_1b_ab_apply]
  rfl

/-- The first layer's body stores the larger of the affine value and 0. -/
theorem first_apply (a h : Vec Ideal S5000x128 .f32) (wl wr : Vec Ideal S128x128 .f32) (b : Vec Ideal S1x128 .f32) (p : Fin 5000) (q : Fin 128) :
    k0_pay1 a h wl wr b (ix2 p q) = max (affine a h wl wr b p q) 0 := by
  unfold k0_pay1 affine
  simp only [shapeCast_self]
  rw [maximumf_apply, addf_apply, addf_apply, product_apply, product_apply, broadcastTo_1b_ab_apply, broadcast_apply]
  show max _ (Ideal.ofBits .f32 0x00000000#32) = _
  rw [Ideal.ofBits_zero_f32]
  rfl

/-- The same two facts at a block index given whole. -/
theorem second_at (a h : Vec Ideal S5000x128 .f32) (wl wr : Vec Ideal S128x128 .f32) (b : Vec Ideal S1x128 .f32) (j : S5000x128.Idx) :
    k1_pay1 a h wl wr b j = affine a h wl wr b (j 0) (j 1) :=
  (congrArg (k1_pay1 a h wl wr b) (eq_ix2 j)).trans (second_apply a h wl wr b (j 0) (j 1))

theorem first_at (a h : Vec Ideal S5000x128 .f32) (wl wr : Vec Ideal S128x128 .f32) (b : Vec Ideal S1x128 .f32) (j : S5000x128.Idx) :
    k0_pay1 a h wl wr b j = max (affine a h wl wr b (j 0) (j 1)) 0 :=
  (congrArg (k0_pay1 a h wl wr b) (eq_ix2 j)).trans (first_apply a h wl wr b (j 0) (j 1))

/-! ## The whole-array functions the two regions compute -/

/-- Row `i₀`, column `i₁` of the dense combine of whole arrays: both products, then the bias. -/
def dense (a h : S100000x128.Idx → EReal) (wl wr : S128x128.Idx → EReal) (b : S1x128.Idx → EReal) : S100000x128.Idx → EReal :=
  fun i => (∑ k : Fin 128, a (ix2 (i 0) k) * wl (ix2 k (i 1)) + ∑ k : Fin 128, h (ix2 (i 0) k) * wr (ix2 k (i 1))) + b (ix2 (0 : Fin 1) (i 1))

/-- The first layer clamps it at 0 from below. -/
def denseClamped (a h : S100000x128.Idx → EReal) (wl wr : S128x128.Idx → EReal) (b : S1x128.Idx → EReal) : S100000x128.Idx → EReal :=
  fun i => max (dense a h wl wr b i) 0

end Cert.KernelIdeal.Combine

end
-- ==== Proof.Region0.lean ====
/-
  Region 0 of the program (the first layer's dense combine) as ONE function of the arrays it is entered with.

  The grid has 20 points; point `t` reads rows 5000·t … 5000·t + 4999 of the aggregated features and of the node
  features, the two whole weight matrices and the bias row, and writes back the same 5000 rows of the result. A row of
  the result depends only on the same row of the two feature arrays, so every block written back is the restriction
  of one whole-array function, the 20 blocks tile the 100000 rows, and the array after the region is that function
  of the arrays as the region found them.
-/
import proofs.«156550_j26474178413285_1_alg».proof.Proof.Gen.KernelIdeal.Frame
import proofs.«156550_j26474178413285_1_alg».proof.Proof.Payload

set_option maxRecDepth 16384

noncomputable section

namespace Cert.KernelIdeal.Region0

open Cert.KernelIdeal Cert.KernelIdeal.Gen Cert.KernelIdeal.Combine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The five arrays the region reads, as it finds them. -/
abbrev aggArr (c : Dev nD) : S100000x128.Idx → EReal := V c (Pipeline.arrRef spec0 0)
abbrev featArr (c : Dev nD) : S100000x128.Idx → EReal := V c (Pipeline.arrRef spec0 1)
abbrev wlArr (c : Dev nD) : S128x128.Idx → EReal := V c (Pipeline.arrRef spec0 2)
abbrev biasArr (c : Dev nD) : S1x128.Idx → EReal := V c (Pipeline.arrRef spec0 3)
abbrev wrArr (c : Dev nD) : S128x128.Idx → EReal := V c (Pipeline.arrRef spec0 4)

/-- The printed index maps over the grid: the two feature windows and the result window sit at block row `t`, block
    column 0; the weights and the bias are always their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 1600000 in
/-- WHAT POINT `t` WRITES BACK is block `t` of the whole-array function of the arrays as the region finds them. -/
theorem flushed_eq (c : Dev nD) (t : Fin cfg0.N) :
    (dat0 V c).flushed 5 t
      = ((cfg0.win 5).blk t).view.read (Elt Ideal) (denseClamped (aggArr V c) (featArr V c) (wlArr V c) (wrArr V c) (biasArr V c)) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e50, e51⟩ := index_facts t
  funext j
  show k0_pay1 (iblk0 V c 0 t) (iblk0 V c 1 t) (iblk0 V c 2 t) (iblk0 V c 4 t) (iblk0 V c 3 t) j
      = denseClamped (aggArr V c) (featArr V c) (wlArr V c) (wrArr V c) (biasArr V c) (((cfg0.win 5).blk t).view.emb j)
  refine (first_at (iblk0 V c 0 t) (iblk0 V c 1 t) (iblk0 V c 2 t) (iblk0 V c 4 t) (iblk0 V c 3 t) j).trans ?_
  have hj0 : (j 0).val < 5000 := (j 0).isLt
  have hj1 : (j 1).val < 128 := (j 1).isLt
  -- the row of the array the block's row `j 0` is, and its column
  have r0 : ((((cfg0.win 5).blk t).view.emb j) 0).val = t.val * 5000 + (j 0).val := by
    show win0_5.index t (0 : Fin 2) * 5000 + 1 * (j 0).val = _; omega
  have r1 : ((((cfg0.win 5).blk t).view.emb j) 1).val = (j 1).val := by
    show win0_5.index t (1 : Fin 2) * 128 + 1 * (j 1).val = _; omega
  have ha : ∀ k : Fin 128, iblk0 V c 0 t (ix2 (j 0) k) = aggArr V c (ix2 ((((cfg0.win 5).blk t).view.emb j) 0) k) := fun k => by
    show V c (Pipeline.arrRef spec0 0) (((cfg0.win 0).blk t).view.emb (ix2 (j 0) k)) = V c (Pipeline.arrRef spec0 0) (ix2 ((((cfg0.win 5).blk t).view.emb j) 0) k)
    refine congrArg (V c (Pipeline.arrRef spec0 0)) (funext fun a => Fin.ext ?_)
    match a with
    | ⟨0, _⟩ => show win0_0.index t (0 : Fin 2) * 5000 + 1 * (j 0).val = ((((cfg0.win 5).blk t).view.emb j) 0).val; omega
    | ⟨1, _⟩ => show win0_0.index t (1 : Fin 2) * 128 + 1 * k.val = k.val; omega
  have hh : ∀ k : Fin 128, iblk0 V c 1 t (ix2 (j 0) k) = featArr V c (ix2 ((((cfg0.win 5).blk t).view.emb j) 0) k) := fun k => by
    show V c (Pipeline.arrRef spec0 1) (((cfg0.win 1).blk t).view.emb (ix2 (j 0) k)) = V c (Pipeline.arrRef spec0 1) (ix2 ((((cfg0.win 5).blk t).view.emb j) 0) k)
    refine congrArg (V c (Pipeline.arrRef spec0 1)) (funext fun a => Fin.ext ?_)
    match a with
    | ⟨0, _⟩ => show win0_1.index t (0 : Fin 2) * 5000 + 1 * (j 0).val = ((((cfg0.win 5).blk t).view.emb j) 0).val; omega
    | ⟨1, _⟩ => show win0_1.index t (1 : Fin 2) * 128 + 1 * k.val = k.val; omega
  have hwl : ∀ k : Fin 128, iblk0 V c 2 t (ix2 k (j 1)) = wlArr V c (ix2 k ((((cfg0.win 5).blk t).view.emb j) 1)) := fun k => by
    show V c (Pipeline.arrRef spec0 2) (((cfg0.win 2).blk t).view.emb (ix2 k (j 1))) = V c (Pipeline.arrRef spec0 2) (ix2 k ((((cfg0.win 5).blk t).view.emb j) 1))
    refine congrArg (V c (Pipeline.arrRef spec0 2)) (funext fun a => Fin.ext ?_)
    match a with
    | ⟨0, _⟩ => show win0_2.index t (0 : Fin 2) * 128 + 1 * k.val = k.val; omega
    | ⟨1, _⟩ => show win0_2.index t (1 : Fin 2) * 128 + 1 * (j 1).val = ((((cfg0.win 5).blk t).view.emb j) 1).val; omega
  have hwr : ∀ k : Fin 128, iblk0 V c 4 t (ix2 k (j 1)) = wrArr V c (ix2 k ((((cfg0.win 5).blk t).view.emb j) 1)) := fun k => by
    show V c (Pipeline.arrRef spec0 4) (((cfg0.win 4).blk t).view.emb (ix2 k (j 1))) = V c (Pipeline.arrRef spec0 4) (ix2 k ((((cfg0.win 5).blk t).view.emb j) 1))
    refine congrArg (V c (Pipeline.arrRef spec0 4)) (funext fun a => Fin.ext ?_)
    match a with
    | ⟨0, _⟩ => show win0_4.index t (0 : Fin 2) * 128 + 1 * k.val = k.val; omega
    | ⟨1, _⟩ => show win0_4.index t (1 : Fin 2) * 128 + 1 * (j 1).val = ((((cfg0.win 5).blk t).view.emb j) 1).val; omega
  have hb : iblk0 V c 3 t (ix2 (0 : Fin 1) (j 1)) = biasArr V c (ix2 (0 : Fin 1) ((((cfg0.win 5).blk t).view.emb j) 1)) := by
    show V c (Pipeline.arrRef spec0 3) (((cfg0.win 3).blk t).view.emb (ix2 (0 : Fin 1) (j 1))) = V c (Pipeline.arrRef spec0 3) (ix2 (0 : Fin 1) ((((cfg0.win 5).blk t).view.emb j) 1))
    refine congrArg (V c (Pipeline.arrRef spec0 3)) (funext fun a => Fin.ext ?_)
    match a with
    | ⟨0, _⟩ => show win0_3.index t (0 : Fin 2) * 1 + 1 * 0 = 0; omega
    | ⟨1, _⟩ => show win0_3.index t (1 : Fin 2) * 128 + 1 * (j 1).val = ((((cfg0.win 5).blk t).view.emb j) 1).val; omega
  unfold affine denseClamped dense
  simp only [ha, hh, hwl, hwr, hb]

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Every row lies in the block of the point `row / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_block]
  obtain ⟨-, -, -, -, -, -, -, -, -, -, e50, e51⟩ := index_facts ⟨(i 0).val / 5000, by rw [hN]; omega⟩
  intro a
  match a with
  | ⟨0, _⟩ => show win0_5.index _ (0 : Fin 2) * 5000 ≤ (i 0).val ∧ (i 0).val < win0_5.index _ (0 : Fin 2) * 5000 + 5000; rw [e50]; show (i 0).val / 5000 * 5000 ≤ _ ∧ _ < (i 0).val / 5000 * 5000 + 5000; omega
  | ⟨1, _⟩ => show win0_5.index _ (1 : Fin 2) * 128 ≤ (i 1).val ∧ (i 1).val < win0_5.index _ (1 : Fin 2) * 128 + 128; rw [e51]; omega

/-- THE ARRAY AFTER THE REGION: the whole-array function of the arrays the region was entered with. -/
theorem final (c : Dev nD) :
    (dat0 V c).arrAt 5 cfg0.N = denseClamped (aggArr V c) (featArr V c) (wlArr V c) (wrArr V c) (biasArr V c) :=
  (dat0 V c).arrAt_eq_of_cover 5 _ (fun t _ => flushed_eq V c t) (covered)

end Cert.KernelIdeal.Region0

end
-- ==== Proof.Region1.lean ====
/-
  Region 1 of the program (the second layer's dense combine) as ONE function of the arrays it is entered with.

  The grid has 20 points; point `t` reads rows 5000·t … 5000·t + 4999 of the aggregated features and of the node
  features, the two whole weight matrices and the bias row, and writes back the same 5000 rows of the result. A row of
  the result depends only on the same row of the two feature arrays, so every block written back is the restriction
  of one whole-array function, the 20 blocks tile the 100000 rows, and the array after the region is that function
  of the arrays as the region found them.
-/
import proofs.«156550_j26474178413285_1_alg».proof.Proof.Gen.KernelIdeal.Frame
import proofs.«156550_j26474178413285_1_alg».proof.Proof.Payload

set_option maxRecDepth 16384

noncomputable section

namespace Cert.KernelIdeal.Region1

open Cert.KernelIdeal Cert.KernelIdeal.Gen Cert.KernelIdeal.Combine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The five arrays the region reads, as it finds them. -/
abbrev aggArr (c : Dev nD) : S100000x128.Idx → EReal := V c (Pipeline.arrRef spec1 0)
abbrev featArr (c : Dev nD) : S100000x128.Idx → EReal := V c (Pipeline.arrRef spec1 1)
abbrev wlArr (c : Dev nD) : S128x128.Idx → EReal := V c (Pipeline.arrRef spec1 2)
abbrev biasArr (c : Dev nD) : S1x128.Idx → EReal := V c (Pipeline.arrRef spec1 3)
abbrev wrArr (c : Dev nD) : S128x128.Idx → EReal := V c (Pipeline.arrRef spec1 4)

/-- The printed index maps over the grid: the two feature windows and the result window sit at block row `t`, block
    column 0; the weights and the bias are always their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1600000 in
/-- WHAT POINT `t` WRITES BACK is block `t` of the whole-array function of the arrays as the region finds them. -/
theorem flushed_eq (c : Dev nD) (t : Fin cfg1.N) :
    (dat1 V c).flushed 5 t
      = ((cfg1.win 5).blk t).view.read (Elt Ideal) (dense (aggArr V c) (featArr V c) (wlArr V c) (wrArr V c) (biasArr V c)) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e50, e51⟩ := index_facts t
  funext j
  show k1_pay1 (iblk1 V c 0 t) (iblk1 V c 1 t) (iblk1 V c 2 t) (iblk1 V c 4 t) (iblk1 V c 3 t) j
      = dense (aggArr V c) (featArr V c) (wlArr V c) (wrArr V c) (biasArr V c) (((cfg1.win 5).blk t).view.emb j)
  refine (second_at (iblk1 V c 0 t) (iblk1 V c 1 t) (iblk1 V c 2 t) (iblk1 V c 4 t) (iblk1 V c 3 t) j).trans ?_
  have hj0 : (j 0).val < 5000 := (j 0).isLt
  have hj1 : (j 1).val < 128 := (j 1).isLt
  -- the row of the array the block's row `j 0` is, and its column
  have r0 : ((((cfg1.win 5).blk t).view.emb j) 0).val = t.val * 5000 + (j 0).val := by
    show win1_5.index t (0 : Fin 2) * 5000 + 1 * (j 0).val = _; omega
  have r1 : ((((cfg1.win 5).blk t).view.emb j) 1).val = (j 1).val := by
    show win1_5.index t (1 : Fin 2) * 128 + 1 * (j 1).val = _; omega
  have ha : ∀ k : Fin 128, iblk1 V c 0 t (ix2 (j 0) k) = aggArr V c (ix2 ((((cfg1.win 5).blk t).view.emb j) 0) k) := fun k => by
    show V c (Pipeline.arrRef spec1 0) (((cfg1.win 0).blk t).view.emb (ix2 (j 0) k)) = V c (Pipeline.arrRef spec1 0) (ix2 ((((cfg1.win 5).blk t).view.emb j) 0) k)
    refine congrArg (V c (Pipeline.arrRef spec1 0)) (funext fun a => Fin.ext ?_)
    match a with
    | ⟨0, _⟩ => show win1_0.index t (0 : Fin 2) * 5000 + 1 * (j 0).val = ((((cfg1.win 5).blk t).view.emb j) 0).val; omega
    | ⟨1, _⟩ => show win1_0.index t (1 : Fin 2) * 128 + 1 * k.val = k.val; omega
  have hh : ∀ k : Fin 128, iblk1 V c 1 t (ix2 (j 0) k) = featArr V c (ix2 ((((cfg1.win 5).blk t).view.emb j) 0) k) := fun k => by
    show V c (Pipeline.arrRef spec1 1) (((cfg1.win 1).blk t).view.emb (ix2 (j 0) k)) = V c (Pipeline.arrRef spec1 1) (ix2 ((((cfg1.win 5).blk t).view.emb j) 0) k)
    refine congrArg (V c (Pipeline.arrRef spec1 1)) (funext fun a => Fin.ext ?_)
    match a with
    | ⟨0, _⟩ => show win1_1.index t (0 : Fin 2) * 5000 + 1 * (j 0).val = ((((cfg1.win 5).blk t).view.emb j) 0).val; omega
    | ⟨1, _⟩ => show win1_1.index t (1 : Fin 2) * 128 + 1 * k.val = k.val; omega
  have hwl : ∀ k : Fin 128, iblk1 V c 2 t (ix2 k (j 1)) = wlArr V c (ix2 k ((((cfg1.win 5).blk t).view.emb j) 1)) := fun k => by
    show V c (Pipeline.arrRef spec1 2) (((cfg1.win 2).blk t).view.emb (ix2 k (j 1))) = V c (Pipeline.arrRef spec1 2) (ix2 k ((((cfg1.win 5).blk t).view.emb j) 1))
    refine congrArg (V c (Pipeline.arrRef spec1 2)) (funext fun a => Fin.ext ?_)
    match a with
    | ⟨0, _⟩ => show win1_2.index t (0 : Fin 2) * 128 + 1 * k.val = k.val; omega
    | ⟨1, _⟩ => show win1_2.index t (1 : Fin 2) * 128 + 1 * (j 1).val = ((((cfg1.win 5).blk t).view.emb j) 1).val; omega
  have hwr : ∀ k : Fin 128, iblk1 V c 4 t (ix2 k (j 1)) = wrArr V c (ix2 k ((((cfg1.win 5).blk t).view.emb j) 1)) := fun k => by
    show V c (Pipeline.arrRef spec1 4) (((cfg1.win 4).blk t).view.emb (ix2 k (j 1))) = V c (Pipeline.arrRef spec1 4) (ix2 k ((((cfg1.win 5).blk t).view.emb j) 1))
    refine congrArg (V c (Pipeline.arrRef spec1 4)) (funext fun a => Fin.ext ?_)
    match a with
    | ⟨0, _⟩ => show win1_4.index t (0 : Fin 2) * 128 + 1 * k.val = k.val; omega
    | ⟨1, _⟩ => show win1_4.index t (1 : Fin 2) * 128 + 1 * (j 1).val = ((((cfg1.win 5).blk t).view.emb j) 1).val; omega
  have hb : iblk1 V c 3 t (ix2 (0 : Fin 1) (j 1)) = biasArr V c (ix2 (0 : Fin 1) ((((cfg1.win 5).blk t).view.emb j) 1)) := by
    show V c (Pipeline.arrRef spec1 3) (((cfg1.win 3).blk t).view.emb (ix2 (0 : Fin 1) (j 1))) = V c (Pipeline.arrRef spec1 3) (ix2 (0 : Fin 1) ((((cfg1.win 5).blk t).view.emb j) 1))
    refine congrArg (V c (Pipeline.arrRef spec1 3)) (funext fun a => Fin.ext ?_)
    match a with
    | ⟨0, _⟩ => show win1_3.index t (0 : Fin 2) * 1 + 1 * 0 = 0; omega
    | ⟨1, _⟩ => show win1_3.index t (1 : Fin 2) * 128 + 1 * (j 1).val = ((((cfg1.win 5).blk t).view.emb j) 1).val; omega
  unfold affine dense
  simp only [ha, hh, hwl, hwr, hb]

/-- An index of the result array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Every row lies in the block of the point `row / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_block]
  obtain ⟨-, -, -, -, -, -, -, -, -, -, e50, e51⟩ := index_facts ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e51]; omega

/-- THE ARRAY AFTER THE REGION: the whole-array function of the arrays the region was entered with. -/
theorem final (c : Dev nD) :
    (dat1 V c).arrAt 5 cfg1.N = dense (aggArr V c) (featArr V c) (wlArr V c) (wrArr V c) (biasArr V c) :=
  (dat1 V c).arrAt_eq_of_cover 5 _ (fun t _ => flushed_eq V c t) (covered)

end Cert.KernelIdeal.Region1

end
-- ==== Proof.KernelValue.lean ====
/-
  The idealized program's result as a function of its arguments.

  @main is: host operations, the first layer's region, host operations, the second layer's region. The host
  operations before the first region cut the edge list into its sources and targets, transpose the four weight
  matrices, make each bias a one-row array and MEAN-AGGREGATE the input features along the edges (gather the source
  rows, a negative index counted from the end; add them up per target node; divide by the node's number of incoming
  edges, or by 1 where there are none). The first region computes the clamped dense layer of that aggregate and the
  inputs. The host operations between the regions mean-aggregate the first layer's result in the same way, and the
  second region computes the dense layer of that aggregate and the first layer's result: the program's result.
-/
import proofs.«156550_j26474178413285_1_alg».proof.Proof.Gen.KernelIdeal.Frame
import proofs.«156550_j26474178413285_1_alg».proof.Proof.Region0
import proofs.«156550_j26474178413285_1_alg».proof.Proof.Region1
import Idealize.ShloMosaic.Lib.StableHlo.Run

set_option maxRecDepth 16384

noncomputable section

namespace Cert.KernelIdeal.Net

open Cert.KernelIdeal Cert.KernelIdeal.Gen Cert.KernelIdeal.Combine
open Idealize.ShloMosaic Idealize.ShloMosaic.TcCoe Idealize.SL.Sem Idealize.ShloMosaic.StableHlo

variable {F : FTy → Type} [FloatOps F]

/-! ## The host operations' functions -/

/-- Row 0 of the edge list: each edge's source node. -/
def sources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: each edge's target node. -/
def targets (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- Mean aggregation of the rows of `h` along edges with sources `s` and targets `d`. -/
def meanAggOf (h : (⟨S100000x128, .f32⟩ : BufTy).Contents (Elt F)) (s d : (⟨S1600000, .i32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 d) (broadcastInDim S1600000 ![] bcast_S_S1600000 (constant S_ .f32 0x3F800000#32))) (broadcastInDim S100000 ![] bcast_S_S100000 (constant S_ .f32 0x3F800000#32)))))

/-- A weight matrix transposed. -/
def transposed (w : (⟨S128x128, .f32⟩ : BufTy).Contents (Elt F)) : (⟨S128x128, .f32⟩ : BufTy).Contents (Elt F) :=
  transpose S128x128 [1, 0] w transposes_S128x128_S128x128_1_0

/-- A bias as a one-row array. -/
def asRow (b : (⟨S128, .f32⟩ : BufTy).Contents (Elt F)) : (⟨S1x128, .f32⟩ : BufTy).Contents (Elt F) :=
  shapeCast _ b shapeCasts_S128_S1x128

/-! ## The two stretches of host operations, read at the buffers the regions take -/

section Stretches

variable (Wv : Valuation τ sig (Elt F))

theorem before0_agg : StableHlo.after hostOps0 Wv (Proc.devRef .tc main_v26)
    = meanAggOf (Wv (Proc.devRef .tc main_arg0)) (sources (Wv (Proc.devRef .tc main_arg1))) (targets (Wv (Proc.devRef .tc main_arg1))) := by
  dsimp only [hostOps0]; after_results_simp <;> rfl
theorem before0_feat : StableHlo.after hostOps0 Wv (Proc.devRef .tc main_arg0) = Wv (Proc.devRef .tc main_arg0) := by
  dsimp only [hostOps0]; after_results_simp <;> rfl
theorem before0_wl : StableHlo.after hostOps0 Wv (Proc.devRef .tc main_v4) = transposed (Wv (Proc.devRef .tc main_arg2)) := by
  dsimp only [hostOps0]; after_results_simp <;> rfl
theorem before0_bias : StableHlo.after hostOps0 Wv (Proc.devRef .tc main_v27) = asRow (Wv (Proc.devRef .tc main_arg3)) := by
  dsimp only [hostOps0]; after_results_simp <;> rfl
theorem before0_wr : StableHlo.after hostOps0 Wv (Proc.devRef .tc main_v5) = transposed (Wv (Proc.devRef .tc main_arg4)) := by
  dsimp only [hostOps0]; after_results_simp <;> rfl
theorem before0_sources : StableHlo.after hostOps0 Wv (Proc.devRef .tc main_v1) = sources (Wv (Proc.devRef .tc main_arg1)) := by
  dsimp only [hostOps0]; after_results_simp <;> rfl
theorem before0_targets : StableHlo.after hostOps0 Wv (Proc.devRef .tc main_v3) = targets (Wv (Proc.devRef .tc main_arg1)) := by
  dsimp only [hostOps0]; after_results_simp <;> rfl
theorem before0_wl2 : StableHlo.after hostOps0 Wv (Proc.devRef .tc main_v6) = transposed (Wv (Proc.devRef .tc main_arg5)) := by
  dsimp only [hostOps0]; after_results_simp <;> rfl
theorem before0_wr2 : StableHlo.after hostOps0 Wv (Proc.devRef .tc main_v7) = transposed (Wv (Proc.devRef .tc main_arg7)) := by
  dsimp only [hostOps0]; after_results_simp <;> rfl
theorem before0_bias2 : StableHlo.after hostOps0 Wv (Proc.devRef .tc main_arg6) = Wv (Proc.devRef .tc main_arg6) := by
  dsimp only [hostOps0]; after_results_simp <;> rfl

theorem before1_agg : StableHlo.after hostOps1 Wv (Proc.devRef .tc main_v47)
    = meanAggOf (Wv (Proc.devRef .tc main_v28)) (Wv (Proc.devRef .tc main_v1)) (Wv (Proc.devRef .tc main_v3)) := by
  dsimp only [hostOps1]; after_results_simp <;> rfl
theorem before1_feat : StableHlo.after hostOps1 Wv (Proc.devRef .tc main_v28) = Wv (Proc.devRef .tc main_v28) := by
  dsimp only [hostOps1]; after_results_simp <;> rfl
theorem before1_wl : StableHlo.after hostOps1 Wv (Proc.devRef .tc main_v6) = Wv (Proc.devRef .tc main_v6) := by
  dsimp only [hostOps1]; after_results_simp <;> rfl
theorem before1_bias : StableHlo.after hostOps1 Wv (Proc.devRef .tc main_v48) = asRow (Wv (Proc.devRef .tc main_arg6)) := by
  dsimp only [hostOps1]; after_results_simp <;> rfl
theorem before1_wr : StableHlo.after hostOps1 Wv (Proc.devRef .tc main_v7) = Wv (Proc.devRef .tc main_v7) := by
  dsimp only [hostOps1]; after_results_simp <;> rfl

end Stretches

/-! ## The two layers -/

variable (m : (ℓ : Loc nD τ sig) → Buf (Elt Ideal) ℓ) (ρ : Dev nD → PrngReg)

/-- The first layer: the clamped dense layer of the mean-aggregated inputs and the inputs. -/
def firstLayer (c : Dev nD) : S100000x128.Idx → EReal :=
  denseClamped (meanAggOf (m ((c.tc : Thread nD τ).loc main_arg0)) (sources (m ((c.tc : Thread nD τ).loc main_arg1))) (targets (m ((c.tc : Thread nD τ).loc main_arg1)))) (m ((c.tc : Thread nD τ).loc main_arg0))
    (transposed (m ((c.tc : Thread nD τ).loc main_arg2))) (transposed (m ((c.tc : Thread nD τ).loc main_arg4))) (asRow (m ((c.tc : Thread nD τ).loc main_arg3)))

/-- The second layer: the dense layer of the mean-aggregated first layer and the first layer. -/
def secondLayer (c : Dev nD) : S100000x128.Idx → EReal :=
  dense (meanAggOf (firstLayer m c) (sources (m ((c.tc : Thread nD τ).loc main_arg1))) (targets (m ((c.tc : Thread nD τ).loc main_arg1)))) (firstLayer m c)
    (transposed (m ((c.tc : Thread nD τ).loc main_arg5))) (transposed (m ((c.tc : Thread nD τ).loc main_arg7))) (asRow (m ((c.tc : Thread nD τ).loc main_arg6)))

/-- After the first region its result array holds the first layer. -/
theorem first_result (c : Dev nD) : W2 m ρ c (Proc.devRef .tc main_v28) = firstLayer m c := by
  refine (W2_arr m ρ c 5).trans ((Region0.final (V1 m ρ) c).trans ?_)
  have e0 : Region0.aggArr (V1 m ρ) c = meanAggOf (m ((c.tc : Thread nD τ).loc main_arg0)) (sources (m ((c.tc : Thread nD τ).loc main_arg1))) (targets (m ((c.tc : Thread nD τ).loc main_arg1))) := before0_agg (W0 m ρ c)
  have e1 : Region0.featArr (V1 m ρ) c = (m ((c.tc : Thread nD τ).loc main_arg0)) := before0_feat (W0 m ρ c)
  have e2 : Region0.wlArr (V1 m ρ) c = transposed (m ((c.tc : Thread nD τ).loc main_arg2)) := before0_wl (W0 m ρ c)
  have e3 : Region0.biasArr (V1 m ρ) c = asRow (m ((c.tc : Thread nD τ).loc main_arg3)) := before0_bias (W0 m ρ c)
  have e4 : Region0.wrArr (V1 m ρ) c = transposed (m ((c.tc : Thread nD τ).loc main_arg4)) := before0_wr (W0 m ρ c)
  unfold firstLayer
  rw [e0, e1, e2, e3, e4]

/-- A buffer no window of the first region names is, after it, what the first host stretch left there. -/
theorem through_first (c : Dev nD) (b : Ref sig .tc) (hb : ∀ w, Pipeline.arrRef spec0 w ≠ b) :
    W2 m ρ c (Proc.devRef .tc b) = StableHlo.after hostOps0 (W0 m ρ c) (Proc.devRef .tc b) :=
  W2_of_ne m ρ c b hb

/-- After the second region its result array, the program's result, holds the second layer. -/
theorem second_result (c : Dev nD) : W4 m ρ c (Proc.devRef .tc main_v49) = secondLayer m c := by
  refine (W4_arr m ρ c 5).trans ((Region1.final (V3 m ρ) c).trans ?_)
  have e0 : Region1.aggArr (V3 m ρ) c = meanAggOf (firstLayer m c) (sources (m ((c.tc : Thread nD τ).loc main_arg1))) (targets (m ((c.tc : Thread nD τ).loc main_arg1))) :=
    (before1_agg (W2 m ρ c)).trans (by
      rw [first_result m ρ c, through_first m ρ c main_v1 (by decide), through_first m ρ c main_v3 (by decide),
        before0_sources, before0_targets])
  have e1 : Region1.featArr (V3 m ρ) c = firstLayer m c := (before1_feat (W2 m ρ c)).trans (first_result m ρ c)
  have e2 : Region1.wlArr (V3 m ρ) c = transposed (m ((c.tc : Thread nD τ).loc main_arg5)) :=
    (before1_wl (W2 m ρ c)).trans ((through_first m ρ c main_v6 (by decide)).trans (before0_wl2 (W0 m ρ c)))
  have e3 : Region1.biasArr (V3 m ρ) c = asRow (m ((c.tc : Thread nD τ).loc main_arg6)) :=
    (before1_bias (W2 m ρ c)).trans (by
      rw [through_first m ρ c main_arg6 (by decide), before0_bias2])
  have e4 : Region1.wrArr (V3 m ρ) c = transposed (m ((c.tc : Thread nD τ).loc main_arg7)) :=
    (before1_wr (W2 m ρ c)).trans ((through_first m ρ c main_v7 (by decide)).trans (before0_wr2 (W0 m ρ c)))
  unfold secondLayer
  rw [e0, e1, e2, e3, e4]

end Cert.KernelIdeal.Net

end
-- ==== Proof.RefValue.lean ====
/-
  The reference's result as a composition of three named functions, and each layer read entry by entry.

  The reference is two rounds of the same two steps. MEAN AGGREGATION: gather the source node's feature row for every
  edge (a negative index counted from the end), add the rows up per destination node, and divide each node's sum by
  its number of incoming edges, or by 1 where there are none. DENSE LAYER: (agg·Wlᵀ + b) + h·Wrᵀ. The first round is
  clamped at 0 from below, and its result is both the features the second round aggregates and the features it
  multiplies by Wrᵀ.

  Over the extended reals an entry of the dense layer is  (∑ₖ agg[i₀,k]·Wlᵀ[k,i₁] + b[i₁]) + ∑ₖ h[i₀,k]·Wrᵀ[k,i₁].
-/
import proofs.«156550_j26474178413285_1_alg».proof.Proof.Gen.ReferenceIdeal.Run
import proofs.«156550_j26474178413285_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The three functions -/

/-- Mean aggregation of the rows of `h` along the edges `e` (row 0 the sources, row 1 the destinations). -/
def meanAgg (h : (⟨S100000x128, .f32⟩ : BufTy).Contents (Elt F)) (e : (⟨S2x1600000, .i32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

/-- One dense layer: `(a·wlᵀ + b) + h·wrᵀ`. -/
def layer (a h : (⟨S100000x128, .f32⟩ : BufTy).Contents (Elt F)) (wl : (⟨S128x128, .f32⟩ : BufTy).Contents (Elt F)) (b : (⟨S128, .f32⟩ : BufTy).Contents (Elt F)) (wr : (⟨S128x128, .f32⟩ : BufTy).Contents (Elt F)) : (⟨S100000x128, .f32⟩ : BufTy).Contents (Elt F) :=
  addf (addf (Host.dotGeneral dot_S100000x128_S128x128_S100000x128_1_0_0_1_n_n none a (transpose S128x128 [1, 0] wl transposes_S128x128_S128x128_1_0)) (broadcastInDim S100000x128 ![0, 1] bcast_S1x128_S100000x128_0_1 (broadcastInDim S1x128 ![1] bcast_S128_S1x128_1 b))) (Host.dotGeneral dot_S100000x128_S128x128_S100000x128_1_0_0_1_n_n none h (transpose S128x128 [1, 0] wr transposes_S128x128_S128x128_1_0))

/-- The first round: the clamped dense layer of the mean-aggregated inputs and the inputs. -/
def hidden (x : (⟨S100000x128, .f32⟩ : BufTy).Contents (Elt F)) (e : (⟨S2x1600000, .i32⟩ : BufTy).Contents (Elt F)) (wl : (⟨S128x128, .f32⟩ : BufTy).Contents (Elt F)) (b : (⟨S128, .f32⟩ : BufTy).Contents (Elt F)) (wr : (⟨S128x128, .f32⟩ : BufTy).Contents (Elt F)) : (⟨S100000x128, .f32⟩ : BufTy).Contents (Elt F) :=
  maximumf (layer (meanAgg x e) x wl b wr) (broadcastInDim S100000x128 ![] bcast_S_S100000x128 (constant S_ .f32 0x00000000#32))

/-- The reference's run ends with the second round applied to the first. -/
theorem result_eq (m : (ℓ : Loc nD τ sig) → Buf (Elt F) ℓ) (c : Dev nD) :
    Cert.ReferenceIdeal.Value.res_main_v58 m c
      = layer (meanAgg (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)))
          (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) := by
  unfold Cert.ReferenceIdeal.Value.res_main_v58 layer hidden layer meanAgg
  rfl

/-! ## A dense layer at an entry -/

/-- The host's product of a 100000-row array with a 128 × 128 matrix is, at row `p` and column `q`, the sum over
    `k` of the left operand's row `p` times the right operand's column `q`. -/
theorem product_apply (y0 : FVec Ideal S100000x128 .f32) (y1 : FVec Ideal S128x128 .f32) (p : Fin 100000) (q : Fin 128) :
    Host.dotGeneral (F := Ideal) dot_S100000x128_S128x128_S100000x128_1_0_0_1_n_n none y0 y1 (ix2 p q) = ∑ k : Fin 128, y0 (ix2 p k) * y1 (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-- The bias, first made a one-row array and then repeated down the rows, reads its entry at the column. -/
theorem bias_apply (b : (⟨S128, .f32⟩ : BufTy).Contents (Elt F)) (p : Fin 100000) (q : Fin 128) :
    broadcastInDim S100000x128 ![0, 1] bcast_S1x128_S100000x128_0_1 (broadcastInDim S1x128 ![1] bcast_S128_S1x128_1 b) (ix2 p q) = b (ix1 q) := by
  have h := (Cert.ReferenceIdeal.Read.val_main_v26_apply (F := F) b (ix2 p q)).trans (Cert.ReferenceIdeal.Read.val_main_v25_apply (F := F) b _)
  unfold Cert.ReferenceIdeal.Read.val_main_v26 Cert.ReferenceIdeal.Read.val_main_v25 at h
  refine h.trans (congrArg b (funext fun a => ?_))
  match a with
  | ⟨0, _⟩ => rfl

/-- An entry of a dense layer over the extended reals. -/
theorem layer_apply (a h : FVec Ideal S100000x128 .f32) (wl : FVec Ideal S128x128 .f32) (b : FVec Ideal S128 .f32) (wr : FVec Ideal S128x128 .f32) (p : Fin 100000) (q : Fin 128) :
    layer (F := Ideal) a h wl b wr (ix2 p q)
      = (∑ k : Fin 128, a (ix2 p k) * (transpose S128x128 [1, 0] wl transposes_S128x128_S128x128_1_0) (ix2 k q) + b (ix1 q))
        + ∑ k : Fin 128, h (ix2 p k) * (transpose S128x128 [1, 0] wr transposes_S128x128_S128x128_1_0) (ix2 k q) := by
  unfold layer
  rw [addf_apply, addf_apply, product_apply, product_apply]
  rw [show (broadcastInDim S100000x128 ![0, 1] bcast_S1x128_S100000x128_0_1 (broadcastInDim S1x128 ![1] bcast_S128_S1x128_1 b)) (ix2 p q) = b (ix1 q) from bias_apply (F := Ideal) b p q]

/-- An entry of the first round: the larger of the dense layer's entry and 0. -/
theorem hidden_apply (x : FVec Ideal S100000x128 .f32) (e : IVec S2x1600000 32) (wl : FVec Ideal S128x128 .f32) (b : FVec Ideal S128 .f32) (wr : FVec Ideal S128x128 .f32) (i : S100000x128.Idx) :
    hidden (F := Ideal) x e wl b wr i = max (layer (F := Ideal) (meanAgg (F := Ideal) x e) x wl b wr i) 0 := by
  unfold hidden
  rw [maximumf_apply]
  refine congrArg (max _) ?_
  exact (Cert.ReferenceIdeal.Read.val_main_call0_v0_apply (F := Ideal) i).trans
    ((Cert.ReferenceIdeal.Read.val_main_call0_cst_apply (F := Ideal) _).trans Ideal.ofBits_zero_f32)

end Cert.ReferenceIdeal.Net

end
-- ==== Proof.Agreement.lean ====
/-
  The two idealized programs compute one function.

  Both mean-aggregate with the same host operations, so the aggregate is ONE function of the features and the edge list
  in both. A dense layer of the reference is, entry by entry,  (∑ₖ a·Wlᵀ + b) + ∑ₖ h·Wrᵀ,  and the kernel's is
  (∑ₖ a·Wlᵀ + ∑ₖ h·Wrᵀ) + b  over the same transposed matrices, the bias read at the same column: equal because
  addition of extended reals is commutative and associative (no finiteness is needed: nothing is cancelled or
  distributed). The reference clamps its first layer by a maximum with an array of zeros, the kernel by a maximum
  with the scalar 0.
-/
import proofs.«156550_j26474178413285_1_alg».proof.Proof.KernelValue
import proofs.«156550_j26474178413285_1_alg».proof.Proof.RefValue
import Idealize.ShloMosaic.Lib.ValueLayout

noncomputable section

namespace Cert.Agreement

open Idealize.ShloMosaic Idealize.ShloMosaic.ValueIdx

/-- Mean aggregation is the same function in both programs. -/
theorem meanAgg_eq (h : FVec Ideal Cert.ReferenceIdeal.S100000x128 .f32) (e : IVec Cert.ReferenceIdeal.S2x1600000 32) :
    Cert.ReferenceIdeal.Net.meanAgg (F := Ideal) h e = Cert.KernelIdeal.Net.meanAggOf (F := Ideal) h (Cert.KernelIdeal.Net.sources (F := Ideal) e) (Cert.KernelIdeal.Net.targets (F := Ideal) e) := by
  unfold Cert.ReferenceIdeal.Net.meanAgg Cert.KernelIdeal.Net.meanAggOf Cert.KernelIdeal.Net.sources Cert.KernelIdeal.Net.targets
  rfl

/-- A dense layer of the reference is the kernel's dense function of the transposed weights and the bias row. -/
theorem layer_eq (a h : FVec Ideal Cert.ReferenceIdeal.S100000x128 .f32) (wl : FVec Ideal Cert.ReferenceIdeal.S128x128 .f32)
    (b : FVec Ideal Cert.ReferenceIdeal.S128 .f32) (wr : FVec Ideal Cert.ReferenceIdeal.S128x128 .f32) :
    Cert.ReferenceIdeal.Net.layer (F := Ideal) a h wl b wr
      = Cert.KernelIdeal.Combine.dense a h (Cert.KernelIdeal.Net.transposed (F := Ideal) wl) (Cert.KernelIdeal.Net.transposed (F := Ideal) wr) (Cert.KernelIdeal.Net.asRow (F := Ideal) b) := by
  funext i
  obtain ⟨p, q, rfl⟩ : ∃ (p : Fin 100000) (q : Fin 128), i = ix2 p q := ⟨i 0, i 1, eq_ix2 i⟩
  rw [Cert.ReferenceIdeal.Net.layer_apply]
  have hb : Cert.KernelIdeal.Net.asRow (F := Ideal) b (ix2 (0 : Fin 1) q) = b (ix1 q) := by
    unfold Cert.KernelIdeal.Net.asRow
    exact shapeCast_a_1a_apply b _ 0 q
  show _ = (∑ k : Fin 128, a (ix2 p k) * Cert.KernelIdeal.Net.transposed (F := Ideal) wl (ix2 k q) + ∑ k : Fin 128, h (ix2 p k) * Cert.KernelIdeal.Net.transposed (F := Ideal) wr (ix2 k q))
      + Cert.KernelIdeal.Net.asRow (F := Ideal) b (ix2 (0 : Fin 1) q)
  rw [hb]
  exact add_right_comm _ _ _

/-- The reference's first layer is the kernel's clamped dense function. -/
theorem hidden_eq (x : FVec Ideal Cert.ReferenceIdeal.S100000x128 .f32) (e : IVec Cert.ReferenceIdeal.S2x1600000 32)
    (wl : FVec Ideal Cert.ReferenceIdeal.S128x128 .f32) (b : FVec Ideal Cert.ReferenceIdeal.S128 .f32) (wr : FVec Ideal Cert.ReferenceIdeal.S128x128 .f32) :
    Cert.ReferenceIdeal.Net.hidden (F := Ideal) x e wl b wr
      = Cert.KernelIdeal.Combine.denseClamped (Cert.KernelIdeal.Net.meanAggOf (F := Ideal) x (Cert.KernelIdeal.Net.sources (F := Ideal) e) (Cert.KernelIdeal.Net.targets (F := Ideal) e)) x
          (Cert.KernelIdeal.Net.transposed (F := Ideal) wl) (Cert.KernelIdeal.Net.transposed (F := Ideal) wr) (Cert.KernelIdeal.Net.asRow (F := Ideal) b) := by
  funext i
  rw [Cert.ReferenceIdeal.Net.hidden_apply, meanAgg_eq, layer_eq]
  unfold Cert.KernelIdeal.Combine.denseClamped
  rfl

/-- The reference's result is the kernel's second layer of its first. -/
theorem net_eq (x0 : FVec Ideal Cert.ReferenceIdeal.S100000x128 .f32) (e : IVec Cert.ReferenceIdeal.S2x1600000 32)
    (x2 : FVec Ideal Cert.ReferenceIdeal.S128x128 .f32) (x3 : FVec Ideal Cert.ReferenceIdeal.S128 .f32) (x4 x5 : FVec Ideal Cert.ReferenceIdeal.S128x128 .f32)
    (x6 : FVec Ideal Cert.ReferenceIdeal.S128 .f32) (x7 : FVec Ideal Cert.ReferenceIdeal.S128x128 .f32) :
    Cert.ReferenceIdeal.Net.layer (F := Ideal) (Cert.ReferenceIdeal.Net.meanAgg (F := Ideal) (Cert.ReferenceIdeal.Net.hidden (F := Ideal) x0 e x2 x3 x4) e) (Cert.ReferenceIdeal.Net.hidden (F := Ideal) x0 e x2 x3 x4) x5 x6 x7
      = Cert.KernelIdeal.Combine.dense
          (Cert.KernelIdeal.Net.meanAggOf (F := Ideal)
            (Cert.KernelIdeal.Combine.denseClamped (Cert.KernelIdeal.Net.meanAggOf (F := Ideal) x0 (Cert.KernelIdeal.Net.sources (F := Ideal) e) (Cert.KernelIdeal.Net.targets (F := Ideal) e)) x0
              (Cert.KernelIdeal.Net.transposed (F := Ideal) x2) (Cert.KernelIdeal.Net.transposed (F := Ideal) x4) (Cert.KernelIdeal.Net.asRow (F := Ideal) x3))
            (Cert.KernelIdeal.Net.sources (F := Ideal) e) (Cert.KernelIdeal.Net.targets (F := Ideal) e))
          (Cert.KernelIdeal.Combine.denseClamped (Cert.KernelIdeal.Net.meanAggOf (F := Ideal) x0 (Cert.KernelIdeal.Net.sources (F := Ideal) e) (Cert.KernelIdeal.Net.targets (F := Ideal) e)) x0
            (Cert.KernelIdeal.Net.transposed (F := Ideal) x2) (Cert.KernelIdeal.Net.transposed (F := Ideal) x4) (Cert.KernelIdeal.Net.asRow (F := Ideal) x3))
          (Cert.KernelIdeal.Net.transposed (F := Ideal) x5) (Cert.KernelIdeal.Net.transposed (F := Ideal) x7) (Cert.KernelIdeal.Net.asRow (F := Ideal) x6) := by
  rw [hidden_eq, meanAgg_eq, layer_eq]

end Cert.Agreement

end
-- ==== Proof.lean ====
/-
  A two-layer GraphSAGE forward pass: a Pallas dense-combine kernel per layer against a plain jnp reference.

  Each layer mean-aggregates the node features along the edges on the host, in both programs by the same operations,
  and then combines:  agg·Wlᵀ + b + h·Wrᵀ.  The kernel computes the combine per block of 5000 nodes on the matrix unit
  with operands narrowed to bf16, as  (agg·Wlᵀ + h·Wrᵀ) + b;  the reference computes  (agg·Wlᵀ + b) + h·Wrᵀ  on whole
  arrays. Over the extended reals the narrowing is the identity and the two groupings of the three summands agree
  because addition is commutative and associative, so the finiteness of the inputs is never used. The first layer is
  clamped at 0 from below in both.

  The frames of the two kernel programs are the generated ones. The idealized kernel's result is read off the same
  launch with the result buffer named (KernelRun), each region's output array as one whole-array function of the
  arrays it is entered with (Region0, Region1, over Payload), and the host operations read at those arrays
  (KernelValue); the reference's result is its generated run, regrouped into its three functions and read entry by
  entry (RefValue); Agreement joins the two.
-/
import proofs.«156550_j26474178413285_1_alg».proof.Defs
import proofs.«156550_j26474178413285_1_alg».proof.Proof.Gen.Kernel
import proofs.«156550_j26474178413285_1_alg».proof.Proof.Gen.Kernel.Skeleton
import proofs.«156550_j26474178413285_1_alg».proof.Proof.Gen.Kernel.Launch
import proofs.«156550_j26474178413285_1_alg».proof.Proof.Gen.Kernel.Points
import proofs.«156550_j26474178413285_1_alg».proof.Proof.Gen.Kernel.Frame
import proofs.«156550_j26474178413285_1_alg».proof.Proof.Gen.KernelIdeal
import proofs.«156550_j26474178413285_1_alg».proof.Proof.Gen.KernelIdeal.Skeleton
import proofs.«156550_j26474178413285_1_alg».proof.Proof.Gen.KernelIdeal.Launch
import proofs.«156550_j26474178413285_1_alg».proof.Proof.Gen.KernelIdeal.Points
import proofs.«156550_j26474178413285_1_alg».proof.Proof.Gen.KernelIdeal.Frame
import proofs.«156550_j26474178413285_1_alg».proof.Proof.Gen.ReferenceIdeal
import proofs.«156550_j26474178413285_1_alg».proof.Proof.Gen.ReferenceIdeal.Run
import proofs.«156550_j26474178413285_1_alg».proof.Proof.Gen.Pre_finite_inputs
import proofs.«156550_j26474178413285_1_alg».proof.Proof.KernelRun
import proofs.«156550_j26474178413285_1_alg».proof.Proof.KernelValue
import proofs.«156550_j26474178413285_1_alg».proof.Proof.RefValue
import proofs.«156550_j26474178413285_1_alg».proof.Proof.Agreement
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both idealized programs end with the second layer of the first. -/
theorem algebraic : Cert.algebraic_KernelIdeal_ReferenceIdeal := by
  intro m ρ m' ρ' _ hagree
  refine ⟨fun c => Cert.KernelIdeal.Net.secondLayer m c, ?_, ?_⟩
  · exact (θ_run Cert.KernelIdeal.defs _ _).mono
      (fun r h c => ⟨(h c).1.trans (Cert.KernelIdeal.Net.second_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Net.result_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.Agreement.net_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
